-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part1 {F : FTy → Type} [FloatOps F] (main_arg4 : FVec F S_ .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S16x128 .f32) (main_arg3 : FVec F S16 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩
abbrev S10000x16 : Shape := ⟨2, ![10000, 16]⟩
abbrev S1x16 : Shape := ⟨2, ![1, 16]⟩
abbrev S1x1 : Shape := ⟨2, ![1, 1]⟩
abbrev S200x10000 : Shape := ⟨2, ![200, 10000]⟩
abbrev S200x16 : Shape := ⟨2, ![200, 16]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S16, .f32⟩
  | .hbm, ⟨4, _⟩ => ⟨S_, .f32⟩
  | .hbm, ⟨5, _⟩ => ⟨S10000x16, .f32⟩
  | .hbm, ⟨6, _⟩ => ⟨S1x16, .f32⟩
  | .hbm, ⟨7, _⟩ => ⟨S1x1, .f32⟩
  | .hbm, ⟨8, _⟩ => ⟨S10000x16, .f32⟩
  | .local _ .vmem, ⟨0, _⟩ => ⟨S10000x128, .f32⟩
  | .local _ .vmem, ⟨1, _⟩ => ⟨S16x128, .f32⟩
  | .local _ .vmem, ⟨2, _⟩ => ⟨S10000x16, .f32⟩
  | .local _ .vmem, ⟨3, _⟩ => ⟨S10000x16, .f32⟩
  | .local _ .vmem, ⟨4, _⟩ => ⟨S1x16, .f32⟩
  | .local _ .vmem, ⟨5, _⟩ => ⟨S1x1, .f32⟩
  | .local _ .vmem, ⟨6, _⟩ => ⟨S200x10000, .f32⟩
  | .local _ .vmem, ⟨7, _⟩ => ⟨S200x10000, .f32⟩
  | .local _ .vmem, ⟨8, _⟩ => ⟨S200x16, .f32⟩
  | .local _ .vmem, ⟨9, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  inb_S10000x16_S10000x16_0_0 : ∀ a, (![0, 0] : Fin 2 → Nat) a + S10000x16.size a ≤ S10000x16.size a
  h_S10000x16 : 0 < S10000x16.numel
  shapeCasts_S16_S1x16 : S16.ShapeCasts S1x16
  shapeCasts_S_S1x1 : S_.ShapeCasts S1x1
  inb_S200x10000_S200x10000_0_0 : ∀ a, (![0, 0] : Fin 2 → Nat) a + S200x10000.size a ≤ S200x10000.size a
  h_S200x10000 : 0 < S200x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x16_S200x16_0_0 : ∀ a, (![0, 0] : Fin 2 → Nat) a + S200x16.size a ≤ S200x16.size a
  h_S200x16 : 0 < S200x16.numel
  dot_S10000x128_S16x128_S10000x16_1_1_0_0_n_n_wf : DotDims.WF S10000x128 S16x128 S10000x16 [1] [1] [0] [0] [] []
  dot_S200x10000_S10000x16_S200x16_1_0_0_1_n_n_wf : DotDims.WF S200x10000 S10000x16 S200x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x16.size a ≤ S10000x16.size a
  hwx1_4 : ∀ i : grid1.Coords, EltTy.bits .f32 = 32 ∨ (Rect.block (s := S10000x16) S200x16.size (cc1_transform_4 i) (hinb1_4 i)).WholeWords (EltTy.packing .f32)

variable [Facts₀]

def dot_S10000x128_S16x128_S10000x16_1_1_0_0_n_n : DotDims S10000x128 S16x128 S10000x16 where
  lhsContracting := [1]
  rhsContracting := [1]
  lhsNonContracting := [0]
  rhsNonContracting := [0]
  lhsBatch := []
  rhsBatch := []
  wf := dot_S10000x128_S16x128_S10000x16_1_1_0_0_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S200x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩
abbrev S128x16 : Shape := ⟨2, ![128, 16]⟩
abbrev S10000x16 : Shape := ⟨2, ![10000, 16]⟩
abbrev S1x16 : Shape := ⟨2, ![1, 16]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S16, .f32⟩
  | .hbm, ⟨4, _⟩ => ⟨S_, .f32⟩
  | .hbm, ⟨5, _⟩ => ⟨S128x16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .i1⟩
  | .hbm, ⟨14, _⟩ => ⟨S10000x16, .f32⟩
  | .hbm, ⟨15, _⟩ => ⟨S10000x16, .f32⟩
  | .hbm, ⟨16, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S16x128_S128x16_1_0 : S16x128.Transposes [1, 0] S128x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.GraphConvSpec.lean ====
/-
  Graph convolution with a PReLU, as one function of the five argument arrays.

  For features x : [10000, 128], adjacency adj : [10000, 10000], weights W : [16, 128], bias b : [16] and slope a (a scalar),

      proj(k, o)  = Σ_j x(k, j) · W(o, j)                  -- the linear layer x · Wᵀ
      s(r, o)     = Σ_k adj(r, k) · proj(k, o) + b(o)      -- aggregation over the neighbours, then the bias
      out(r, o)   = s(r, o) if s(r, o) ≥ 0, else a · s(r, o)

  over the extended reals, the comparison and the zero threshold being the ideal instance's own. Both programs compute
  the sums in exactly this association, so no law of arithmetic is needed beyond reading each matrix product as its sum.
-/
import Idealize.ShloMosaic.PureOps.Ideal
import Idealize.ShloMosaic.Lib.ValueIdx

noncomputable section

open scoped BigOperators

namespace Cert.GraphConv

open Idealize.ShloMosaic Idealize.ShloMosaic.ValueIdx

/-- The shapes of the arguments and of the result. -/
abbrev Feat : Shape := ⟨2, ![10000, 128]⟩
abbrev Adj : Shape := ⟨2, ![10000, 10000]⟩
abbrev Wgt : Shape := ⟨2, ![16, 128]⟩
abbrev Bias : Shape := ⟨1, ![16]⟩
abbrev Scal : Shape := ⟨0, ![]⟩
abbrev Out : Shape := ⟨2, ![10000, 16]⟩

/-- The linear layer: node `k`'s features against output channel `o`'s weights. -/
def proj (x : Feat.Idx → EReal) (W : Wgt.Idx → EReal) (k : Fin 10000) (o : Fin 16) : EReal :=
  ∑ j : Fin 128, x (ix2 k j) * W (ix2 o j)

/-- Row `r` of the adjacency against column `o` of any [10000, 16] array given by coordinates. -/
def aggregate (adj : Adj.Idx → EReal) (seq : Fin 10000 → Fin 16 → EReal) (r : Fin 10000) (o : Fin 16) : EReal :=
  ∑ k : Fin 10000, adj (ix2 r k) * seq k o

/-- The parametric rectifier with slope `a`: `s` where `s ≥ 0` (compared as the ideal instance compares, against the
    value of the zero word), `a · s` elsewhere. -/
def prelu (a s : EReal) : EReal :=
  Scalar.select (Ideal.cmp .oge s (Ideal.ofBits .f32 0x00000000#32)) s (a * s)

/-- The result at row `r`, channel `o`. -/
def gconvAt (x : Feat.Idx → EReal) (adj : Adj.Idx → EReal) (W : Wgt.Idx → EReal) (b : Bias.Idx → EReal) (a : Scal.Idx → EReal)
    (r : Fin 10000) (o : Fin 16) : EReal :=
  prelu (a ix0) (aggregate adj (proj x W) r o + b (ix1 o))

/-- The whole result array. -/
def gconv (x : Feat.Idx → EReal) (adj : Adj.Idx → EReal) (W : Wgt.Idx → EReal) (b : Bias.Idx → EReal) (a : Scal.Idx → EReal) :
    Out.Idx → EReal :=
  fun i => gconvAt x adj W b a ⟨(i 0).val, idx2_lt0 i⟩ ⟨(i 1).val, idx2_lt1 i⟩

/-- At the index of coordinates `(r, o)` the array reads the result at `(r, o)`. -/
theorem gconv_ix2 (x : Feat.Idx → EReal) (adj : Adj.Idx → EReal) (W : Wgt.Idx → EReal) (b : Bias.Idx → EReal) (a : Scal.Idx → EReal)
    (r : Fin 10000) (o : Fin 16) : gconv x adj W b a (ix2 r o) = gconvAt x adj W b a r o := rfl

end Cert.GraphConv

end
-- ==== Proof.KernelPayloads.lean ====
/-
  What each kernel body stores, read at one entry.

  The projection body stores the product of its two loaded blocks contracted along their second axes into a zero
  accumulator: at (k, o) that is Σ_j x(k, j) · W(o, j), the specification's `proj`. The aggregation body stores, for its 200
  rows of the adjacency: the product with the projected features contracted along the 10000 nodes, into a zero accumulator,
  plus the one-row bias laid along every row, passed through the rectifier whose slope is the single entry of the [1, 1]
  block. At (p, o) that is prelu a (Σ_k adj(p, k) · seq(k, o) + b(0, o)).
-/
import proofs.«177532_g5746666242438_cont_9to1c4b_472_3_alg».proof.Proof.Gen.KernelIdeal.Skeleton
import proofs.«177532_g5746666242438_cont_9to1c4b_472_3_alg».proof.Proof.GraphConvSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.GraphConv

/-! ## The projection's product: both operands contracted along their second axis -/

theorem projL0 (i : S10000x16.Idx) (q : dot_S10000x128_S16x128_S10000x16_1_1_0_0_n_n.contr.Idx) :
    (dot_S10000x128_S16x128_S10000x16_1_1_0_0_n_n.lhsIdx i q 0).val = (i 0).val := by
  unfold DotDims.lhsIdx
  rw [dif_neg (show ¬(0 : Fin S10000x128.rank) ∈ dot_S10000x128_S16x128_S10000x16_1_1_0_0_n_n.lhsBatch by decide), dif_pos (show (0 : Fin S10000x128.rank) ∈ dot_S10000x128_S16x128_S10000x16_1_1_0_0_n_n.lhsNonContracting by decide)]
  rfl
theorem projL1 (i : S10000x16.Idx) (q : dot_S10000x128_S16x128_S10000x16_1_1_0_0_n_n.contr.Idx) :
    (dot_S10000x128_S16x128_S10000x16_1_1_0_0_n_n.lhsIdx i q 1).val = (q ⟨0, by decide⟩).val :=
  dot_S10000x128_S16x128_S10000x16_1_1_0_0_n_n.lhsIdx_val_of_single rfl i q
theorem projR0 (i : S10000x16.Idx) (q : dot_S10000x128_S16x128_S10000x16_1_1_0_0_n_n.contr.Idx) :
    (dot_S10000x128_S16x128_S10000x16_1_1_0_0_n_n.rhsIdx i q 0).val = (i 1).val := by
  unfold DotDims.rhsIdx
  rw [dif_neg (show ¬(0 : Fin S16x128.rank) ∈ dot_S10000x128_S16x128_S10000x16_1_1_0_0_n_n.rhsBatch by decide), dif_pos (show (0 : Fin S16x128.rank) ∈ dot_S10000x128_S16x128_S10000x16_1_1_0_0_n_n.rhsNonContracting by decide)]
  rfl
theorem projR1 (i : S10000x16.Idx) (q : dot_S10000x128_S16x128_S10000x16_1_1_0_0_n_n.contr.Idx) :
    (dot_S10000x128_S16x128_S10000x16_1_1_0_0_n_n.rhsIdx i q 1).val = (q ⟨0, by decide⟩).val :=
  dot_S10000x128_S16x128_S10000x16_1_1_0_0_n_n.rhsIdx_val_of_single rfl i q

/-- The projection body's stored value at (k, o) is the linear layer there. -/
theorem proj_pay (v0 : Vec Ideal S10000x128 .f32) (v1 : Vec Ideal S16x128 .f32) (k : Fin 10000) (o : Fin 16) :
    k0_pay1 (F := Ideal) v0 v1 (ix2 k o) = proj v0 v1 k o := by
  show FloatOps.matmul (F := Ideal) (φ₁ := .f32) (φ₂ := .f32) dot_S10000x128_S16x128_S10000x16_1_1_0_0_n_n none v0 v1 (constant S10000x16 .f32 0x00000000#32) (ix2 k o) = _
  unfold proj
  rw [Ideal.matmul_constant_zero_apply, ← Equiv.sum_comp (contrEquiv1 dot_S10000x128_S16x128_S10000x16_1_1_0_0_n_n 128 rfl rfl).symm]
  refine Finset.sum_congr rfl fun j _ => ?_
  have hk := contrEquiv1_symm_val dot_S10000x128_S16x128_S10000x16_1_1_0_0_n_n 128 rfl rfl j
  have el : dot_S10000x128_S16x128_S10000x16_1_1_0_0_n_n.lhsIdx (ix2 k o) ((contrEquiv1 dot_S10000x128_S16x128_S10000x16_1_1_0_0_n_n 128 rfl rfl).symm j) = ix2 k j := funext fun a => Fin.ext (by
    match a with
    | ⟨0, _⟩ => exact projL0 _ _
    | ⟨1, _⟩ => exact (projL1 _ _).trans hk)
  have er : dot_S10000x128_S16x128_S10000x16_1_1_0_0_n_n.rhsIdx (ix2 k o) ((contrEquiv1 dot_S10000x128_S16x128_S10000x16_1_1_0_0_n_n 128 rfl rfl).symm j) = ix2 o j := funext fun a => Fin.ext (by
    match a with
    | ⟨0, _⟩ => exact projR0 _ _
    | ⟨1, _⟩ => exact (projR1 _ _).trans hk)
  rw [el, er]

/-! ## The aggregation's product: the adjacency rows against the projected features, along the nodes -/

theorem aggL0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem aggL1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
theorem aggR0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
theorem aggR1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- The product of a 200-row block `A` with a [10000, 16] array `s`, into a zero accumulator, at (p, o). -/
theorem agg_matmul (A : Vec Ideal S200x10000 .f32) (s : Vec Ideal S10000x16 .f32) (p : Fin 200) (o : Fin 16) :
    matmul (F := Ideal) (φ₁ := .f32) (φ₂ := .f32) dot_S200x10000_S10000x16_S200x16_1_0_0_1_n_n none A s (constant S200x16 .f32 0x00000000#32) (ix2 p o)
      = ∑ k : Fin 10000, A (ix2 p k) * s (ix2 k o) := by
  show FloatOps.matmul (F := Ideal) (φ₁ := .f32) (φ₂ := .f32) dot_S200x10000_S10000x16_S200x16_1_0_0_1_n_n none A s (constant S200x16 .f32 0x00000000#32) (ix2 p o) = _
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p o) ((contrEquiv1 dot_S200x10000_S10000x16_S200x16_1_0_0_1_n_n 10000 rfl rfl).symm k) = ix2 p k := funext fun a => Fin.ext (by
    match a with
    | ⟨0, _⟩ => exact aggL0 _ _
    | ⟨1, _⟩ => exact (aggL1 _ _).trans hk)
  have er : dot_S200x10000_S10000x16_S200x16_1_0_0_1_n_n.rhsIdx (ix2 p o) ((contrEquiv1 dot_S200x10000_S10000x16_S200x16_1_0_0_1_n_n 10000 rfl rfl).symm k) = ix2 k o := funext fun a => Fin.ext (by
    match a with
    | ⟨0, _⟩ => exact (aggR0 _ _).trans hk
    | ⟨1, _⟩ => exact aggR1 _ _)
  rw [el, er]

/-- The aggregation body's stored value at (p, o): the rectifier, with the [1, 1] block's entry as slope, of the row's
    sum over the nodes plus the bias row's entry at `o`. -/
theorem agg_pay (A : Vec Ideal S200x10000 .f32) (s : Vec Ideal S10000x16 .f32) (b : Vec Ideal S1x16 .f32) (a : Vec Ideal S1x1 .f32)
    (p : Fin 200) (o : Fin 16) :
    k1_pay1 (F := Ideal) A s b a (ix2 p o)
      = prelu (a (ix2 (0 : Fin 1) (0 : Fin 1))) ((∑ k : Fin 10000, A (ix2 p k) * s (ix2 k o)) + b (ix2 (0 : Fin 1) o)) := by
  have hsum : addf (F := Ideal) (φ := .f32) (matmul (F := Ideal) (φ₁ := .f32) (φ₂ := .f32) dot_S200x10000_S10000x16_S200x16_1_0_0_1_n_n none A (shapeCast (α := EReal) S10000x16 s shapeCasts_S10000x16_S10000x16) (constant S200x16 .f32 0x00000000#32))
      (broadcastTo (α := EReal) S200x16 (shapeCast (α := EReal) S1x16 b shapeCasts_S1x16_S1x16) broadcasts_S1x16_S200x16) (ix2 p o)
      = (∑ k : Fin 10000, A (ix2 p k) * s (ix2 k o)) + b (ix2 (0 : Fin 1) o) := by
    rw [addf_apply, shapeCast_self, shapeCast_self, agg_matmul, broadcastTo_1b_ab_apply]
  have hslope : extractAt ![0, 0] a inpos_S1x1_p0_0 = a (ix2 (0 : Fin 1) (0 : Fin 1)) :=
    congrArg a (funext fun ax => Fin.ext (by match ax with | ⟨0, _⟩ => rfl | ⟨1, _⟩ => rfl))
  unfold k1_pay1 prelu
  show Scalar.select (Ideal.cmp .oge (addf (F := Ideal) (φ := .f32) _ _ (ix2 p o)) (Ideal.ofBits .f32 0x00000000#32)) (addf (F := Ideal) (φ := .f32) _ _ (ix2 p o))
      (extractAt ![0, 0] a inpos_S1x1_p0_0 * addf (F := Ideal) (φ := .f32) _ _ (ix2 p o)) = _
  rw [hsum, hslope]

end Cert.KernelIdeal.Payloads

end
-- ==== Proof.KernelArrays.lean ====
/-
  From blocks to arrays: what each region leaves in its result array, for ANY contents `V` the region finds.

  The first region has one point and every block is its whole array: the point writes back the linear layer of the
  features and the weights as found, so the result array ends holding `projArr`. The second region has 50 points; at point
  `t` the projected features, the bias row and the slope are their whole arrays, the adjacency's block is its rows
  200 t … 200 t + 199 and the result's block the same rows: the point writes back those rows of the aggregation array
  (`aggArr`: row sums over the nodes, plus the bias, through the rectifier). Row `r` lies in the block of point r / 200, so the
  blocks cover the result and it ends holding `aggArr` of the arrays as found.
-/
import proofs.«177532_g5746666242438_cont_9to1c4b_472_3_alg».proof.Proof.Gen.KernelIdeal.Frame
import proofs.«177532_g5746666242438_cont_9to1c4b_472_3_alg».proof.Proof.KernelPayloads
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Arrays

open Cert.KernelIdeal Cert.KernelIdeal.Gen Cert.KernelIdeal.Payloads Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The linear layer as a [10000, 16] array. -/
def projArr (x : Feat.Idx → EReal) (W : Wgt.Idx → EReal) : Out.Idx → EReal :=
  fun i => proj x W ⟨(i 0).val, idx2_lt0 i⟩ ⟨(i 1).val, idx2_lt1 i⟩

/-- The aggregation, bias and rectifier as a [10000, 16] array, of an adjacency, a [10000, 16] array `s`, a one-row bias
    and a one-entry slope. -/
def aggArr (adj : Adj.Idx → EReal) (s : Out.Idx → EReal) (b : (⟨2, ![1, 16]⟩ : Shape).Idx → EReal)
    (a : (⟨2, ![1, 1]⟩ : Shape).Idx → EReal) : Out.Idx → EReal :=
  fun i => prelu (a (ix2 (0 : Fin 1) (0 : Fin 1)))
    ((∑ k : Fin 10000, adj (ix2 (⟨(i 0).val, idx2_lt0 i⟩ : Fin 10000) k) * s (ix2 k (⟨(i 1).val, idx2_lt1 i⟩ : Fin 16)))
      + b (ix2 (0 : Fin 1) (⟨(i 1).val, idx2_lt1 i⟩ : Fin 16)))

/-! ## The first region: one point, every block its whole array -/

/-- With no grid every window's block index is zero on both axes. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The features' block is the features. -/
theorem feat_block (c : Dev nD) (t : Fin cfg0.N) : (iblk0 V c 0 t : Vec Ideal S10000x128 .f32) = V c main_arg0 := by
  funext x
  unfold iblk0
  rw [View.read_apply]
  show V c main_arg0 _ = V c main_arg0 x
  congr 1
  funext a
  apply Fin.ext
  obtain ⟨e0, e1, -⟩ := idx0 t
  match a with
  | ⟨0, _⟩ => show win0_0.index t (0 : Fin 2) * 10000 + 1 * (x 0).val = (x 0).val; omega
  | ⟨1, _⟩ => show win0_0.index t (1 : Fin 2) * 128 + 1 * (x 1).val = (x 1).val; omega

/-- The weights' block is the weights. -/
theorem wgt_block (c : Dev nD) (t : Fin cfg0.N) : (iblk0 V c 1 t : Vec Ideal S16x128 .f32) = V c main_arg2 := by
  funext x
  unfold iblk0
  rw [View.read_apply]
  show V c main_arg2 _ = V c main_arg2 x
  congr 1
  funext a
  apply Fin.ext
  obtain ⟨-, -, e0, e1, -⟩ := idx0 t
  match a with
  | ⟨0, _⟩ => show win0_1.index t (0 : Fin 2) * 16 + 1 * (x 0).val = (x 0).val; omega
  | ⟨1, _⟩ => show win0_1.index t (1 : Fin 2) * 128 + 1 * (x 1).val = (x 1).val; omega

/-- What the one point writes back is the block of the linear layer of the arrays as the region finds them. -/
theorem seq_flushed (c : Dev nD) (t : Fin cfg0.N) :
    (dat0 V c).flushed 2 t = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S16x128) hz]
  funext j
  obtain ⟨k, o, rfl⟩ : ∃ (k : Fin 10000) (o : Fin 16), j = ix2 k o := ⟨j 0, j 1, eq_ix2 j⟩
  rw [View.read_apply]
  show k0_pay1 (F := Ideal) (iblk0 V c 0 t) (iblk0 V c 1 t) (ix2 k o) = projArr (V c main_arg0) (V c main_arg2) _
  rw [proj_pay, feat_block, wgt_block]
  unfold projArr
  obtain ⟨-, -, -, -, e0, e1⟩ := idx0 t
  congr 1 <;> apply Fin.ext
  · show k.val = win0_2.index t (0 : Fin 2) * 10000 + 1 * k.val; omega
  · show o.val = win0_2.index t (1 : Fin 2) * 16 + 1 * o.val; omega

/-- An index of the array is in point `t`'s block iff each coordinate is in the block's range on its axis. -/
theorem mem_seq_blk (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- After the first region its result array holds the linear layer of the arrays as the region found them. -/
theorem seq_final (c : Dev nD) : (dat0 V c).arrAt 2 cfg0.N = projArr (V c main_arg0) (V c main_arg2) :=
  (dat0 V c).arrAt_eq_of_cover 2 _ (fun t _ => seq_flushed V c t) fun i => by
    refine ⟨t0_0, flush0_2 t0_0, ?_⟩
    rw [mem_seq_blk]
    obtain ⟨-, -, -, -, e0, e1⟩ := idx0 t0_0
    have h0 : (i 0).val < 10000 := (i 0).isLt
    have h1 : (i 1).val < 16 := (i 1).isLt
    intro a
    match a with
    | ⟨0, _⟩ => show win0_2.index t0_0 (0 : Fin 2) * 10000 ≤ (i 0).val ∧ (i 0).val < win0_2.index t0_0 (0 : Fin 2) * 10000 + 10000; omega
    | ⟨1, _⟩ => show win0_2.index t0_0 (1 : Fin 2) * 16 ≤ (i 1).val ∧ (i 1).val < win0_2.index t0_0 (1 : Fin 2) * 16 + 16; omega

/-! ## The second region: 50 points, point `t` on rows 200 t … 200 t + 199 of the adjacency and of the result -/

/-- The three small windows stay at block (0, 0); the adjacency's and the result's block index is the point, on rows. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt50 (t : Fin cfg1.N) : t.val < 50 := lt_of_lt_of_eq t.isLt N_1

/-- The projected features' block is the whole array. -/
theorem seq_block (c : Dev nD) (t : Fin cfg1.N) : (iblk1 V c 0 t : Vec Ideal S10000x16 .f32) = V c main_v0 := by
  funext x
  unfold iblk1
  rw [View.read_apply]
  show V c main_v0 _ = V c main_v0 x
  congr 1
  funext a
  apply Fin.ext
  obtain ⟨e0, e1, -⟩ := idx1 t
  match a with
  | ⟨0, _⟩ => show win1_0.index t (0 : Fin 2) * 10000 + 1 * (x 0).val = (x 0).val; omega
  | ⟨1, _⟩ => show win1_0.index t (1 : Fin 2) * 16 + 1 * (x 1).val = (x 1).val; omega

/-- The bias row's block is the row. -/
theorem bias_block (c : Dev nD) (t : Fin cfg1.N) : (iblk1 V c 1 t : Vec Ideal S1x16 .f32) = V c main_v1 := by
  funext x
  unfold iblk1
  rw [View.read_apply]
  show V c main_v1 _ = V c main_v1 x
  congr 1
  funext a
  apply Fin.ext
  obtain ⟨-, -, e0, e1, -⟩ := idx1 t
  match a with
  | ⟨0, _⟩ => show win1_1.index t (0 : Fin 2) * 1 + 1 * (x 0).val = (x 0).val; omega
  | ⟨1, _⟩ => show win1_1.index t (1 : Fin 2) * 16 + 1 * (x 1).val = (x 1).val; omega

/-- The slope's block is its one entry. -/
theorem slope_block (c : Dev nD) (t : Fin cfg1.N) : (iblk1 V c 2 t : Vec Ideal S1x1 .f32) = V c main_v2 := by
  funext x
  unfold iblk1
  rw [View.read_apply]
  show V c main_v2 _ = V c main_v2 x
  congr 1
  funext a
  apply Fin.ext
  obtain ⟨-, -, -, -, e0, e1, -⟩ := idx1 t
  match a with
  | ⟨0, _⟩ => show win1_2.index t (0 : Fin 2) * 1 + 1 * (x 0).val = (x 0).val; omega
  | ⟨1, _⟩ => show win1_2.index t (1 : Fin 2) * 1 + 1 * (x 1).val = (x 1).val; omega

/-- The adjacency's block at point `t` is its rows 200 t … 200 t + 199. -/
theorem adj_block_apply (c : Dev nD) (t : Fin cfg1.N) (p : Fin 200) (k : Fin 10000) (r : Fin 10000) (hr : r.val = 200 * t.val + p.val) :
    (iblk1 V c 3 t : Vec Ideal S200x10000 .f32) (ix2 p k) = V c main_arg1 (ix2 r k) := by
  unfold iblk1
  rw [View.read_apply]
  show V c main_arg1 _ = V c main_arg1 (ix2 r k)
  congr 1
  funext a
  apply Fin.ext
  obtain ⟨-, -, -, -, -, -, e0, e1, -⟩ := idx1 t
  match a with
  | ⟨0, _⟩ => show win1_3.index t (0 : Fin 2) * 200 + 1 * p.val = r.val; omega
  | ⟨1, _⟩ => show win1_3.index t (1 : Fin 2) * 10000 + 1 * k.val = k.val; omega

/-- The array form at an index of known coordinates. -/
theorem aggArr_at (adj : Adj.Idx → EReal) (s : Out.Idx → EReal) (b : (⟨2, ![1, 16]⟩ : Shape).Idx → EReal)
    (a : (⟨2, ![1, 1]⟩ : Shape).Idx → EReal) (i : Out.Idx) (r : Fin 10000) (o : Fin 16) (h0 : (i 0).val = r.val) (h1 : (i 1).val = o.val) :
    aggArr adj s b a i = prelu (a (ix2 (0 : Fin 1) (0 : Fin 1))) ((∑ k : Fin 10000, adj (ix2 r k) * s (ix2 k o)) + b (ix2 (0 : Fin 1) o)) := by
  obtain rfl : i = ix2 r o := funext fun d => by match d with | ⟨0, _⟩ => exact Fin.ext h0 | ⟨1, _⟩ => exact Fin.ext h1
  rfl

/-- What point `t` writes back is its block of the aggregation array of the arrays as the region finds them. -/
theorem out_flushed (c : Dev nD) (t : Fin cfg1.N) :
    (dat1 V c).flushed 4 t = ((cfg1.win 4).blk t).view.read (Elt Ideal) (aggArr (V c main_arg1) (V c main_v0) (V c main_v1) (V c main_v2)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x16) hz, View.ld_unit_zero (S := S1x16) hz, View.ld_unit_zero (S := S1x1) hz]
  funext j
  obtain ⟨p, o, rfl⟩ : ∃ (p : Fin 200) (o : Fin 16), j = ix2 p o := ⟨j 0, j 1, eq_ix2 j⟩
  rw [View.read_apply]
  show k1_pay1 (F := Ideal) (iblk1 V c 3 t) (iblk1 V c 0 t) (iblk1 V c 1 t) (iblk1 V c 2 t) (ix2 p o) = aggArr (V c main_arg1) (V c main_v0) (V c main_v1) (V c main_v2) _
  have ht := lt50 t
  obtain ⟨-, -, -, -, -, -, -, -, e0, e1⟩ := idx1 t
  have hp := p.isLt
  have hr : 200 * t.val + p.val < 10000 := by omega
  rw [agg_pay, seq_block, bias_block, slope_block,
    aggArr_at _ _ _ _ _ (⟨200 * t.val + p.val, hr⟩ : Fin 10000) o
      (by show win1_4.index t (0 : Fin 2) * 200 + 1 * p.val = 200 * t.val + p.val; omega)
      (by show win1_4.index t (1 : Fin 2) * 16 + 1 * o.val = o.val; omega)]
  congr 2
  exact Finset.sum_congr rfl fun k _ => by rw [adj_block_apply V c t p k ⟨200 * t.val + p.val, hr⟩ rfl]

/-- An index of the result is in point `t`'s block iff each coordinate is in the block's range on its axis. -/
theorem mem_out_blk (t : Fin cfg1.N) (i : S10000x16.Idx) :
    i ∈ ((cfg1.win 4).blk t).view.set ↔ ∀ a : Fin 2, win1_4.index t a * S200x16.size a ≤ (i a).val ∧ (i a).val < win1_4.index t a * S200x16.size a + S200x16.size a := by
  show i ∈ ((View.whole main_v3).slice (win1_4.rect t)).set ↔ _
  rw [View.set_slice_whole, Rect.mem_set_unit]
  exact Iff.rfl

/-- After the second region the result array holds the aggregation array of the arrays as the region found them: row `r`
    is written by point `r / 200`. -/
theorem out_final (c : Dev nD) :
    (dat1 V c).arrAt 4 cfg1.N = aggArr (V c main_arg1) (V c main_v0) (V c main_v1) (V c main_v2) :=
  (dat1 V c).arrAt_eq_of_cover 4 _ (fun t _ => out_flushed V c t) fun i => by
    have h0 : (i 0).val < 10000 := (i 0).isLt
    have h1 : (i 1).val < 16 := (i 1).isLt
    refine ⟨⟨(i 0).val / 200, by rw [show cfg1.N = 50 from N_1]; omega⟩, flush1_4 _, ?_⟩
    rw [mem_out_blk]
    obtain ⟨-, -, -, -, -, -, -, -, e0, e1⟩ := idx1 ⟨(i 0).val / 200, by rw [show cfg1.N = 50 from N_1]; omega⟩
    intro a
    match a with
    | ⟨0, _⟩ => show win1_4.index _ (0 : Fin 2) * 200 ≤ (i 0).val ∧ (i 0).val < win1_4.index _ (0 : Fin 2) * 200 + 200; rw [e0]; show (i 0).val / 200 * 200 ≤ (i 0).val ∧ (i 0).val < (i 0).val / 200 * 200 + 200; omega
    | ⟨1, _⟩ => show win1_4.index _ (1 : Fin 2) * 16 ≤ (i 1).val ∧ (i 1).val < win1_4.index _ (1 : Fin 2) * 16 + 16; rw [e1]; omega

end Cert.KernelIdeal.Arrays

end
-- ==== Proof.KernelValue.lean ====
/-
  The kernel's result array is the graph convolution of the launch arguments.

  Between the two regions the host recasts the bias [16] to one row [1, 16] and the slope (a scalar) to [1, 1]; it writes
  nothing else, so the second region finds: the first region's result — the linear layer of the launch features and
  weights —, the adjacency as launched, the bias row with entry (0, o) = b(o), and the slope's one entry a. The second
  region then leaves the aggregation array of these, which entry by entry is
  prelu a (Σ_k adj(r, k) · proj(k, o) + b(o)): the specification.
-/
import proofs.«177532_g5746666242438_cont_9to1c4b_472_3_alg».proof.Proof.KernelIdealRun
import proofs.«177532_g5746666242438_cont_9to1c4b_472_3_alg».proof.Proof.KernelArrays
import Idealize.ShloMosaic.Lib.StableHlo.Run

set_option maxRecDepth 16384

noncomputable section

open scoped BigOperators

namespace Cert.KernelIdeal.Result

open Cert.KernelIdeal Cert.KernelIdeal.Gen Cert.KernelIdeal.Arrays Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-! ## What the second region finds: the first region's result, the two reshaped arguments, the adjacency -/

/-- Neither reshape writes a buffer other than its own result. -/
theorem reshapes_keep (c : Dev nD) (b : Ref sig .tc) (h1 : main_v1 ≠ b) (h2 : main_v2 ≠ b) :
    V2 m ρ c b = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1.symm, StableHlo.devRef_ne_of_ne h2.symm⟩))

/-- The projected features are what the first region left: the linear layer of the launch arguments. -/
theorem entry_seq (c : Dev nD) :
    V2 m ρ c main_v0 = projArr (m ((c : Thread nD τ).loc main_arg0)) (m ((c : Thread nD τ).loc main_arg2)) :=
  (reshapes_keep m ρ c main_v0 (by decide) (by decide)).trans ((W1_arr m ρ c 2).trans (seq_final (V0 m ρ) c))

/-- The adjacency is as launched. -/
theorem entry_adj (c : Dev nD) : V2 m ρ c main_arg1 = m ((c : Thread nD τ).loc main_arg1) :=
  (reshapes_keep m ρ c main_arg1 (by decide) (by decide)).trans (W1_of_ne m ρ c main_arg1 (by decide))

/-- The bias row is the bias recast to one row. -/
theorem entry_bias (c : Dev nD) :
    V2 m ρ c main_v1 = shapeCast S1x16 (m ((c : Thread nD τ).loc main_arg3)) shapeCasts_S16_S1x16 := by
  show StableHlo.after hostOps1 (W1 m ρ c) (Proc.devRef .tc main_v1) = _
  after_results
  rw [W1_of_ne m ρ c main_arg3 (by decide)]
  rfl

/-- The slope's [1, 1] array is the scalar recast. -/
theorem entry_slope (c : Dev nD) :
    V2 m ρ c main_v2 = shapeCast S1x1 (m ((c : Thread nD τ).loc main_arg4)) shapeCasts_S_S1x1 := by
  show StableHlo.after hostOps1 (W1 m ρ c) (Proc.devRef .tc main_v2) = _
  after_results
  rw [W1_of_ne m ρ c main_arg4 (by decide)]
  rfl

/-! ## The result array is the graph convolution of the launch arguments -/

/-- The aggregation array of an adjacency, the linear layer of features and weights, a bias recast to one row and a slope
    recast to one entry is the graph convolution: entry by entry the same sums, bias and rectifier. -/
theorem aggArr_eq_gconv (x : Feat.Idx → EReal) (adj : Adj.Idx → EReal) (W : Wgt.Idx → EReal) (b : Bias.Idx → EReal) (a : Scal.Idx → EReal)
    (hb : Bias.ShapeCasts ⟨2, ![1, 16]⟩) (ha : Scal.ShapeCasts ⟨2, ![1, 1]⟩) :
    aggArr adj (projArr x W) (shapeCast ⟨2, ![1, 16]⟩ b hb) (shapeCast ⟨2, ![1, 1]⟩ a ha) = gconv x adj W b a := by
  funext i
  obtain ⟨r, o, rfl⟩ : ∃ (r : Fin 10000) (o : Fin 16), i = ix2 r o := ⟨i 0, i 1, eq_ix2 i⟩
  have hs : shapeCast ⟨2, ![1, 1]⟩ a ha (ix2 (0 : Fin 1) (0 : Fin 1)) = a ix0 := by
    unfold shapeCast; exact congrArg a (funext fun d => d.elim0)
  rw [gconv_ix2, aggArr_at _ _ _ _ _ r o rfl rfl, shapeCast_a_1a_apply, hs]
  rfl

/-- What the last boundary holds at the result array. -/
theorem result_eq (c : Dev nD) :
    W3 m ρ c (Proc.devRef .tc main_v3)
      = gconv (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 4).trans ((out_final (V2 m ρ) c).trans ?_)
  rw [entry_adj, entry_seq, entry_bias, entry_slope]
  exact aggArr_eq_gconv _ _ _ _ _ _ _

/-- The run, read: every weakly fair execution of the kernel's program terminates, nothing faulting, with the result array
    at the graph convolution of the launch arguments and the arguments unchanged. -/
theorem run : θ_run defs (onTc (τ := τ) (main (F := Ideal))) ⟨m, fun _ => 0, ρ⟩ (fun r => ∀ c : Dev nD,
      r.2.mem ((c.tc : Thread nD τ).loc main_v3)
        = gconv (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.ValueRun.run_main (F := Ideal) m ρ)

end Cert.KernelIdeal.Result

end
-- ==== Proof.ReferenceValue.lean ====
/-
  The reference computes the graph convolution of the specification.

  Its twelve host operations, read one at a time at an index (the generated read-at-an-index lemmas), come to: the
  transpose of W at (j, o) is W(o, j); the first product at (k, o) is Σ_j x(k, j) · Wᵀ(j, o) = proj(k, o); the second at
  (r, o) is Σ_k adj(r, k) · proj(k, o); the bias, broadcast to a row and then to every row, is b(o); the zero constant and
  the slope, broadcast to every entry, are themselves; and the comparison, the product with the slope and the selection are
  entrywise. At each index this is the specification's term, the same operations in the same order.
-/
import proofs.«177532_g5746666242438_cont_9to1c4b_472_3_alg».proof.Proof.Gen.ReferenceIdeal.Read
import proofs.«177532_g5746666242438_cont_9to1c4b_472_3_alg».proof.Proof.GraphConvSpec

noncomputable section

open scoped BigOperators

namespace Cert.ReferenceIdeal.RefValue

open Cert.ReferenceIdeal Cert.ReferenceIdeal.Read Idealize.ShloMosaic Idealize.ShloMosaic.ValueIdx Cert.GraphConv

/-! ## Where each operation reads its operands, in coordinates -/

/-- The second product at (r, o) reads the adjacency along row `r` … -/
theorem adj_at (r : Fin 10000) (o : Fin 16) (k : Fin 10000) : lidx_main_v2 (ix2 r o) k = ix2 r k :=
  funext fun a => Fin.ext (by match a with | ⟨0, _⟩ => rfl | ⟨1, _⟩ => rfl)
/-- … and the projected features down column `o`. -/
theorem seq_at (r : Fin 10000) (o : Fin 16) (k : Fin 10000) : ridx_main_v2 (ix2 r o) k = ix2 k o :=
  funext fun a => Fin.ext (by match a with | ⟨0, _⟩ => rfl | ⟨1, _⟩ => rfl)
/-- The first product at (k, o) reads the features along row `k` … -/
theorem feat_at (k : Fin 10000) (o : Fin 16) (j : Fin 128) : lidx_main_v1 (ix2 k o) j = ix2 k j :=
  funext fun a => Fin.ext (by match a with | ⟨0, _⟩ => rfl | ⟨1, _⟩ => rfl)
/-- … and the transposed weights down column `o`, … -/
theorem wgtT_at (k : Fin 10000) (o : Fin 16) (j : Fin 128) : ridx_main_v1 (ix2 k o) j = ix2 j o :=
  funext fun a => Fin.ext (by match a with | ⟨0, _⟩ => rfl | ⟨1, _⟩ => rfl)
/-- … which at (j, o) are the weights at (o, j). -/
theorem wgt_at (j : Fin 128) (o : Fin 16) : idx_main_v0 (ix2 j o) = ix2 o j :=
  funext fun a => Fin.ext (by match a with | ⟨0, _⟩ => rfl | ⟨1, _⟩ => rfl)
/-- The bias broadcast to a row and then to every row reads, at (r, o), the bias at `o`. -/
theorem bias_at (r : Fin 10000) (o : Fin 16) : idx_main_v3 (idx_main_v4 (ix2 r o)) = ix1 o :=
  funext fun a => Fin.ext (by match a with | ⟨0, _⟩ => rfl)

/-! ## The reference's result is the specification's -/

/-- The reference's last stage, as a function of the five arguments, is the graph convolution: at each index both are the
    same operations of the same entries. -/
theorem ref_eq (x0 : Feat.Idx → EReal) (x1 : Adj.Idx → EReal) (x2 : Wgt.Idx → EReal) (x3 : Bias.Idx → EReal) (x4 : Scal.Idx → EReal) :
    val_main_v10 (F := Ideal) x0 x1 x2 x3 x4 = gconv x0 x1 x2 x3 x4 := by
  funext i
  obtain ⟨r, o, rfl⟩ : ∃ (r : Fin 10000) (o : Fin 16), i = ix2 r o := ⟨i 0, i 1, eq_ix2 i⟩
  rw [gconv_ix2]
  simp only [val_main_v10_apply, val_main_v7_apply, val_main_v9_apply, val_main_v5_apply, val_main_v6_apply,
    val_main_cst_apply, val_main_v8_apply, val_main_v4_apply, val_main_v3_apply, val_main_v2_apply, val_main_v1_apply,
    val_main_v0_apply, adj_at, seq_at, feat_at, wgtT_at, wgt_at, bias_at]
  rfl

end Cert.ReferenceIdeal.RefValue

end
-- ==== Proof.lean ====
/-
  Graph convolution with a parametric rectifier: out = PReLU(adj · (x · Wᵀ) + b), a two-call kernel against jnp.

  The kernel first computes the linear layer seq = x · Wᵀ in one call (one point, whole arrays), then, 200 rows of the
  adjacency at a time, the aggregation adj · seq plus the bias through the rectifier. The reference computes the same
  products in the same association — the transpose of W, x · Wᵀ, adj · (x · Wᵀ), the bias broadcast over the rows, the
  comparison with zero, the product with the slope, the selection. Over the extended reals a product into a zero
  accumulator and the host's product are both the plain sum over the contracted axis, so entry by entry the two programs
  apply the same operations to the same entries: no law of arithmetic, and so no finiteness of the inputs, is needed.

  `Cert.GraphConv.gconv` is that function of the five arguments. The kernel's result array ends holding it (the first
  region's array is the linear layer, the host stretch recasts the bias and the slope, the second region's blocks cover
  the result row by row), and the reference's last stage is it, read one operation at a time. The three frames are the
  generated ones (the reference's is its run with the result dropped); the idealization rewrote nothing.
-/
import proofs.«177532_g5746666242438_cont_9to1c4b_472_3_alg».proof.Defs
import proofs.«177532_g5746666242438_cont_9to1c4b_472_3_alg».proof.Proof.Gen.Kernel
import proofs.«177532_g5746666242438_cont_9to1c4b_472_3_alg».proof.Proof.Gen.Kernel.Skeleton
import proofs.«177532_g5746666242438_cont_9to1c4b_472_3_alg».proof.Proof.Gen.Kernel.Launch
import proofs.«177532_g5746666242438_cont_9to1c4b_472_3_alg».proof.Proof.Gen.Kernel.Points
import proofs.«177532_g5746666242438_cont_9to1c4b_472_3_alg».proof.Proof.Gen.Kernel.Frame
import proofs.«177532_g5746666242438_cont_9to1c4b_472_3_alg».proof.Proof.Gen.KernelIdeal
import proofs.«177532_g5746666242438_cont_9to1c4b_472_3_alg».proof.Proof.Gen.KernelIdeal.Skeleton
import proofs.«177532_g5746666242438_cont_9to1c4b_472_3_alg».proof.Proof.Gen.KernelIdeal.Launch
import proofs.«177532_g5746666242438_cont_9to1c4b_472_3_alg».proof.Proof.Gen.KernelIdeal.Points
import proofs.«177532_g5746666242438_cont_9to1c4b_472_3_alg».proof.Proof.Gen.KernelIdeal.Frame
import proofs.«177532_g5746666242438_cont_9to1c4b_472_3_alg».proof.Proof.Gen.ReferenceIdeal
import proofs.«177532_g5746666242438_cont_9to1c4b_472_3_alg».proof.Proof.Gen.Pre_finite_inputs
import proofs.«177532_g5746666242438_cont_9to1c4b_472_3_alg».proof.Proof.Gen.ReferenceIdeal.Run
import proofs.«177532_g5746666242438_cont_9to1c4b_472_3_alg».proof.Proof.Gen.ReferenceIdeal.Read
import proofs.«177532_g5746666242438_cont_9to1c4b_472_3_alg».proof.Proof.KernelValue
import proofs.«177532_g5746666242438_cont_9to1c4b_472_3_alg».proof.Proof.ReferenceValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the graph convolution of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
